-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S32x4096 : Shape := ⟨2, ![32, 4096]⟩
abbrev S32 : Shape := ⟨1, ![32]⟩
abbrev S4096x32 : Shape := ⟨2, ![4096, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S32x4096 : S_.BroadcastsInDim S32x4096 (![] : Fin 0 → Fin S32x4096.rank)
  reducesTo_S32x4096_S_d0_1 : S32x4096.ReducesTo [0, 1] S_
  bcast_S_S32 : S_.BroadcastsInDim S32 (![] : Fin 0 → Fin S32.rank)
  reducesTo_S32_S_d0 : S32.ReducesTo [0] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg5 : FVec F S32 .f32) (main_arg6 : FVec F S4096x32 .f32) (main_v13 : IVec S_ 1) (main_v16 : IVec S32x4096 1) : IVec S_ 1 :=
  let main_c_5 : IVec S_ 1 := constantI S_ 1 1#1
  let main_v17 : IVec S_ 1 := (fun x v => Host.reduce IntOp.andi x v reducesTo_S32x4096_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S4096x32 .f32 := Host.absf main_arg6
  let main_cst_8 : FVec F S_ .f32 := constant S_ .f32 0x7F800000#32
  let main_v25 : FVec F S4096x32 .f32 := broadcastInDim S4096x32 ![] bcast_S_S4096x32 main_cst_8
  let main_v26 : IVec S4096x32 1 := cmpf .olt main_v24 main_v25
  let main_c_9 : IVec S_ 1 := constantI S_ 1 1#1
  let main_v27 : IVec S_ 1 := (fun x v => Host.reduce IntOp.andi x v reducesTo_S4096x32_S_d0_1 h_S_) main_v26 main_c_9
  let main_v28 : IVec S_ 1 := andi main_v23 main_v27
  main_v28

def fn {F : FTy → Type} [FloatOps F] (main_arg0 : FVec F S4x2048x4096 .f32) (main_arg1 : IVec S4096x4096 32) (main_arg2 : FVec F S4096 .f32) (main_arg3 : FVec F S4096 .f32) (main_arg4 : FVec F S32x4096 .f32) (main_arg5 : FVec F S32 .f32) (main_arg6 : FVec F S4096x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S32x4096 .f32 := Host.absf main_arg4
  let main_cst_4 : FVec F S_ .f32 := constant S_ .f32 0x7F800000#32
  let main_v15 : FVec F S32x4096 .f32 := broadcastInDim S32x4096 ![] bcast_S_S32x4096 main_cst_4
  let main_v16 : IVec S32x4096 1 := cmpf .olt main_v14 main_v15
  fn_part1 (F := F) main_arg5 main_arg6 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S32x4096 : Shape := ⟨2, ![32, 4096]⟩
abbrev S32 : Shape := ⟨1, ![32]⟩
abbrev S4096x32 : Shape := ⟨2, ![4096, 32]⟩
abbrev S8192x4096 : Shape := ⟨2, ![8192, 4096]⟩
abbrev S4096x1 : Shape := ⟨2, ![4096, 1]⟩
abbrev S1x4096 : Shape := ⟨2, ![1, 4096]⟩
abbrev S1x32 : Shape := ⟨2, ![1, 32]⟩
abbrev S2048x512 : Shape := ⟨2, ![2048, 512]⟩
abbrev S1024x512 : Shape := ⟨2, ![1024, 512]⟩
abbrev S1024x1 : Shape := ⟨2, ![1024, 1]⟩
abbrev S1x1024 : Shape := ⟨2, ![1, 1024]⟩
abbrev S32x512 : Shape := ⟨2, ![32, 512]⟩
abbrev S1024x32 : Shape := ⟨2, ![1024, 32]⟩
abbrev S2048x1024 : Shape := ⟨2, ![2048, 1024]⟩
abbrev S2048x32 : Shape := ⟨2, ![2048, 32]⟩
abbrev S512x1024 : Shape := ⟨2, ![512, 1024]⟩
abbrev S512x32 : Shape := ⟨2, ![512, 32]⟩
abbrev S32x1024 : Shape := ⟨2, ![32, 1024]⟩

abbrev nBuf : Space → Nat
  | .hbm => 13
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S32x4096, .f32⟩
  | .hbm, ⟨5, _⟩ => ⟨S32, .f32⟩
  | .hbm, ⟨6, _⟩ => ⟨S4096x32, .f32⟩
  | .hbm, ⟨7, _⟩ => ⟨S8192x4096, .f32⟩
  | .hbm, ⟨8, _⟩ => ⟨S4096x1, .f32⟩
  | .hbm, ⟨9, _⟩ => ⟨S1x4096, .f32⟩
  | .hbm, ⟨10, _⟩ => ⟨S1x32, .f32⟩
  | .hbm, ⟨11, _⟩ => ⟨S8192x4096, .f32⟩
  | .hbm, ⟨12, _⟩ => ⟨S4x2048x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .i32⟩
  | .local _ .vmem, ⟨3, _⟩ => ⟨S1024x512, .i32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S32x512, .f32⟩
  | .local _ .vmem, ⟨9, _⟩ => ⟨S32x512, .f32⟩
  | .local _ .vmem, ⟨10, _⟩ => ⟨S1x32, .f32⟩
  | .local _ .vmem, ⟨11, _⟩ => ⟨S1024x32, .f32⟩
  | .local _ .vmem, ⟨12, _⟩ => ⟨S1024x32, .f32⟩
  | .local _ .vmem, ⟨13, _⟩ => ⟨S2048x1024, .f32⟩
  | .local _ .vmem, ⟨14, _⟩ => ⟨S2048x1024, .f32⟩
  | .local _ .vmem, ⟨15, _⟩ => ⟨S2048x1024, .f32⟩
  | .local _ .vmem, ⟨16, _⟩ => ⟨S2048x32, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v29 : BitVec 1 := Scalar.cmpi .eq arg2 c7_i32
  let v30 : BitVec 32 := Scalar.extui v29
  let c0_i32_17 : BitVec 32 := 0#32
  let v31 : BitVec 1 := Scalar.cmpi .ne v30 c0_i32_17
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S4x2048x4096_S8192x4096 : S4x2048x4096.ShapeCasts S8192x4096
  shapeCasts_S4096_S4096x1 : S4096.ShapeCasts S4096x1
  shapeCasts_S4096_S1x4096 : S4096.ShapeCasts S1x4096
  shapeCasts_S32_S1x32 : S32.ShapeCasts S1x32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  transposes_S1024x512_p1_0_S512x1024 : S1024x512.Transposes [1, 0] S512x1024
  inb_S32x512_S32x512_0_0 : ∀ a, (![0, 0] : Fin 2 → Nat) a + S32x512.size a ≤ S32x512.size a
  h_S32x512 : 0 < S32x512.numel
  transposes_S32x512_p1_0_S512x32 : S32x512.Transposes [1, 0] S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S1024x32_S1024x32_0_0 : ∀ a, (![0, 0] : Fin 2 → Nat) a + S1024x32.size a ≤ S1024x32.size a
  h_S1024x32 : 0 < S1024x32.numel
  transposes_S1024x32_p1_0_S32x1024 : S1024x32.Transposes [1, 0] S32x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x512_S512x1024_S2048x1024_1_0_0_1_n_n_wf : DotDims.WF S2048x512 S512x1024 S2048x1024 [1] [0] [0] [1] [] []
  dot_S2048x512_S512x32_S2048x32_1_0_0_1_n_n_wf : DotDims.WF S2048x512 S512x32 S2048x32 [1] [0] [0] [1] [] []
  dot_S2048x32_S32x1024_S2048x1024_1_0_0_1_n_n_wf : DotDims.WF S2048x32 S32x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x512.size a ≤ S32x4096.size a
  hwx0_4 : ∀ i : grid0.Coords, EltTy.bits .f32 = 32 ∨ (Rect.block (s := S32x4096) S32x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x32.size a ≤ S4096x32.size a
  hwx0_6 : ∀ i : grid0.Coords, EltTy.bits .f32 = 32 ∨ (Rect.block (s := S4096x32) S1024x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1024.size a ≤ S8192x4096.size a
  hwx0_7 : ∀ i : grid0.Coords, EltTy.bits .f32 = 32 ∨ (Rect.block (s := S8192x4096) S2048x1024.size (cc0_transform_7 i) (hinb0_7 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S2048x32_S32x1024_S2048x1024_1_0_0_1_n_n : DotDims S2048x32 S32x1024 S2048x1024 where
  lhsContracting := [1]
  rhsContracting := [0]
  lhsNonContracting := [0]
  rhsNonContracting := [1]
  lhsBatch := []
  rhsBatch := []
  wf := dot_S2048x32_S32x1024_S2048x1024_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S2048x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S32x4096 : Shape := ⟨2, ![32, 4096]⟩
abbrev S32 : Shape := ⟨1, ![32]⟩
abbrev S4096x32 : Shape := ⟨2, ![4096, 32]⟩
abbrev S4096x1 : Shape := ⟨2, ![4096, 1]⟩
abbrev S1x1x4096 : Shape := ⟨3, ![1, 1, 4096]⟩
abbrev S4x2048x32 : Shape := ⟨3, ![4, 2048, 32]⟩
abbrev S1x1x32 : Shape := ⟨3, ![1, 1, 32]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S32x4096, .f32⟩
  | .hbm, ⟨5, _⟩ => ⟨S32, .f32⟩
  | .hbm, ⟨6, _⟩ => ⟨S4096x32, .f32⟩
  | .hbm, ⟨7, _⟩ => ⟨S4096x4096, .f32⟩
  | .hbm, ⟨8, _⟩ => ⟨S4096x1, .f32⟩
  | .hbm, ⟨9, _⟩ => ⟨S4096x4096, .f32⟩
  | .hbm, ⟨10, _⟩ => ⟨S4096x4096, .f32⟩
  | .hbm, ⟨11, _⟩ => ⟨S4x2048x4096, .f32⟩
  | .hbm, ⟨12, _⟩ => ⟨S1x1x4096, .f32⟩
  | .hbm, ⟨13, _⟩ => ⟨S4x2048x4096, .f32⟩
  | .hbm, ⟨14, _⟩ => ⟨S4x2048x4096, .f32⟩
  | .hbm, ⟨15, _⟩ => ⟨S4x2048x32, .f32⟩
  | .hbm, ⟨16, _⟩ => ⟨S1x1x32, .f32⟩
  | .hbm, ⟨17, _⟩ => ⟨S4x2048x32, .f32⟩
  | .hbm, ⟨18, _⟩ => ⟨S4x2048x32, .f32⟩
  | .hbm, ⟨19, _⟩ => ⟨S4x2048x4096, .f32⟩
  | .hbm, ⟨20, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S32_S1x1x32_2 : S32.BroadcastsInDim S1x1x32 (![2] : Fin 1 → Fin S1x1x32.rank)
  bcast_S1x1x32_S4x2048x32_0_1_2 : S1x1x32.BroadcastsInDim S4x2048x32 (![0, 1, 2] : Fin 3 → Fin S4x2048x32.rank)
  dot_S4x2048x4096_S4096x4096_S4x2048x4096_2_1_01_0_n_n_wf : DotDims.WF S4x2048x4096 S4096x4096 S4x2048x4096 [2] [1] [0, 1] [0] [] []
  dot_S4x2048x4096_S32x4096_S4x2048x32_2_1_01_0_n_n_wf : DotDims.WF S4x2048x4096 S32x4096 S4x2048x32 [2] [1] [0, 1] [0] [] []
  dot_S4x2048x32_S4096x32_S4x2048x4096_2_1_01_0_n_n_wf : DotDims.WF S4x2048x32 S4096x32 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S32x4096_S4x2048x32_2_1_01_0_n_n : DotDims S4x2048x4096 S32x4096 S4x2048x32 where
  lhsContracting := [2]
  rhsContracting := [1]
  lhsNonContracting := [0, 1]
  rhsNonContracting := [0]
  lhsBatch := []
  rhsBatch := []
  wf := dot_S4x2048x4096_S32x4096_S4x2048x32_2_1_01_0_n_n_wf
def dot_S4x2048x32_S4096x32_S4x2048x4096_2_1_01_0_n_n : DotDims S4x2048x32 S4096x32 S4x2048x4096 where
  lhsContracting := [2]
  rhsContracting := [1]
  lhsNonContracting := [0, 1]
  rhsNonContracting := [0]
  lhsBatch := []
  rhsBatch := []
  wf := dot_S4x2048x32_S4096x32_S4x2048x4096_2_1_01_0_n_n_wf

class Facts : Prop extends Facts₀ where

variable [Facts]
-- ==== Proof.Pieces.lean ====
/-
  What each of the body's three control cases leaves behind, as values.

  The first chunk of a row-and-channel block (case A) zeroes both accumulators and adds the chunk's terms; a middle
  chunk (case B) adds its terms to what the chunk before left; the last chunk (case C) does the same and then stores
  the output block, computed from the two accumulators it has just updated. Each buffer a case writes is covered by
  whole-block stores, so its contents are the last store's value, a load after a store of the same run reading the
  stored value back.
-/
import proofs.«125677_j25202868093527_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First chunk, base accumulator: the zero block plus the chunk's term. -/
theorem mainA (c : Dev nD) (i : grid0.Coords) (arg3 : Memref sig .tc .vmem S2048x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S32x512 .f32) (harg7 : arg7.IsWhole) (arg8 : Memref sig .tc .vmem S1x32 .f32) (harg8 : arg8.IsWhole) (arg9 : Memref sig .tc .vmem S1024x32 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x32 .f32) (harg12 : arg12.IsWhole) (hc0 : cond0_0 i) (hc1 : ¬cond0_1 i)
    (x0 : Vec F S2048x512 .f32) (x1 : Vec F S1024x512 .i32) (x2 : Vec F S1024x1 .f32) (x3 : Vec F S1x1024 .f32) (x4 : Vec F S32x512 .f32) (x5 : Vec F S1x32 .f32) (x6 : Vec F S1024x32 .f32) :
    sout0_A_0 c i arg3 harg3 arg4 harg4 arg5 harg5 arg6 harg6 arg7 harg7 arg8 harg8 arg9 harg9 arg10 harg10 arg11 harg11 arg12 harg12 hc0 hc1 x0 x1 x2 x3 x4 x5 x6 = k0_pay5 x0 x1 x2 (k0_pay2 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S2048x512) hz, View.ld_unit_zero (S := S1024x512) hz, View.ld_unit_zero (S := S1024x1) hz, View.ld_unit_zero (S := S1x1024) hz, View.ld_unit_zero (S := S32x512) hz, View.ld_unit_zero (S := S1x32) hz, View.ld_unit_zero (S := S1024x32) hz, View.ld_unit_zero (S := S2048x1024) hz, View.ld_unit_zero (S := S2048x32) hz, shapeCast_self]

/-- First chunk, down-projection accumulator: the zero block plus the chunk's term. -/
theorem downA (c : Dev nD) (i : grid0.Coords) (arg3 : Memref sig .tc .vmem S2048x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S32x512 .f32) (harg7 : arg7.IsWhole) (arg8 : Memref sig .tc .vmem S1x32 .f32) (harg8 : arg8.IsWhole) (arg9 : Memref sig .tc .vmem S1024x32 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x32 .f32) (harg12 : arg12.IsWhole) (hc0 : cond0_0 i) (hc1 : ¬cond0_1 i)
    (x0 : Vec F S2048x512 .f32) (x1 : Vec F S1024x512 .i32) (x2 : Vec F S1024x1 .f32) (x3 : Vec F S1x1024 .f32) (x4 : Vec F S32x512 .f32) (x5 : Vec F S1x32 .f32) (x6 : Vec F S1024x32 .f32) :
    sout0_A_1 c i arg3 harg3 arg4 harg4 arg5 harg5 arg6 harg6 arg7 harg7 arg8 harg8 arg9 harg9 arg10 harg10 arg11 harg11 arg12 harg12 hc0 hc1 x0 x1 x2 x3 x4 x5 x6 = k0_pay6 x0 x4 (k0_pay3 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S2048x32) hz, View.readCov_unit_zero (S := S2048x32) _ hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S2048x512) hz, View.ld_unit_zero (S := S1024x512) hz, View.ld_unit_zero (S := S1024x1) hz, View.ld_unit_zero (S := S1x1024) hz, View.ld_unit_zero (S := S32x512) hz, View.ld_unit_zero (S := S1x32) hz, View.ld_unit_zero (S := S1024x32) hz, View.ld_unit_zero (S := S2048x1024) hz, View.ld_unit_zero (S := S2048x32) hz, shapeCast_self]

/-- Middle chunk, base accumulator: what the chunk before left plus the chunk's term. -/
theorem mainB (c : Dev nD) (i : grid0.Coords) (arg3 : Memref sig .tc .vmem S2048x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S32x512 .f32) (harg7 : arg7.IsWhole) (arg8 : Memref sig .tc .vmem S1x32 .f32) (harg8 : arg8.IsWhole) (arg9 : Memref sig .tc .vmem S1024x32 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x32 .f32) (harg12 : arg12.IsWhole) (hc0 : ¬cond0_0 i) (hc1 : ¬cond0_1 i)
    (x0 : Vec F S2048x512 .f32) (x1 : Vec F S1024x512 .i32) (x2 : Vec F S1024x1 .f32) (x3 : Vec F S1x1024 .f32) (x4 : Vec F S32x512 .f32) (x5 : Vec F S1x32 .f32) (x6 : Vec F S1024x32 .f32) (xs0 : Vec F S2048x1024 .f32) (xs1 : Vec F S2048x32 .f32) :
    sout0_B_0 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay5 x0 x1 x2 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S2048x512) hz, View.ld_unit_zero (S := S1024x512) hz, View.ld_unit_zero (S := S1024x1) hz, View.ld_unit_zero (S := S1x1024) hz, View.ld_unit_zero (S := S32x512) hz, View.ld_unit_zero (S := S1x32) hz, View.ld_unit_zero (S := S1024x32) hz, View.ld_unit_zero (S := S2048x1024) hz, View.ld_unit_zero (S := S2048x32) hz, shapeCast_self]

/-- Middle chunk, down-projection accumulator. -/
theorem downB (c : Dev nD) (i : grid0.Coords) (arg3 : Memref sig .tc .vmem S2048x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S32x512 .f32) (harg7 : arg7.IsWhole) (arg8 : Memref sig .tc .vmem S1x32 .f32) (harg8 : arg8.IsWhole) (arg9 : Memref sig .tc .vmem S1024x32 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x32 .f32) (harg12 : arg12.IsWhole) (hc0 : ¬cond0_0 i) (hc1 : ¬cond0_1 i)
    (x0 : Vec F S2048x512 .f32) (x1 : Vec F S1024x512 .i32) (x2 : Vec F S1024x1 .f32) (x3 : Vec F S1x1024 .f32) (x4 : Vec F S32x512 .f32) (x5 : Vec F S1x32 .f32) (x6 : Vec F S1024x32 .f32) (xs0 : Vec F S2048x1024 .f32) (xs1 : Vec F S2048x32 .f32) :
    sout0_B_1 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay6 x0 x4 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S2048x512) hz, View.ld_unit_zero (S := S1024x512) hz, View.ld_unit_zero (S := S1024x1) hz, View.ld_unit_zero (S := S1x1024) hz, View.ld_unit_zero (S := S32x512) hz, View.ld_unit_zero (S := S1x32) hz, View.ld_unit_zero (S := S1024x32) hz, View.ld_unit_zero (S := S2048x1024) hz, View.ld_unit_zero (S := S2048x32) hz, shapeCast_self]

/-- Last chunk, base accumulator. -/
theorem mainC (c : Dev nD) (i : grid0.Coords) (arg3 : Memref sig .tc .vmem S2048x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S32x512 .f32) (harg7 : arg7.IsWhole) (arg8 : Memref sig .tc .vmem S1x32 .f32) (harg8 : arg8.IsWhole) (arg9 : Memref sig .tc .vmem S1024x32 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x32 .f32) (harg12 : arg12.IsWhole) (hc0 : ¬cond0_0 i) (hc1 : cond0_1 i)
    (x0 : Vec F S2048x512 .f32) (x1 : Vec F S1024x512 .i32) (x2 : Vec F S1024x1 .f32) (x3 : Vec F S1x1024 .f32) (x4 : Vec F S32x512 .f32) (x5 : Vec F S1x32 .f32) (x6 : Vec F S1024x32 .f32) (xs0 : Vec F S2048x1024 .f32) (xs1 : Vec F S2048x32 .f32) :
    sout0_C_0 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay5 x0 x1 x2 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S2048x512) hz, View.ld_unit_zero (S := S1024x512) hz, View.ld_unit_zero (S := S1024x1) hz, View.ld_unit_zero (S := S1x1024) hz, View.ld_unit_zero (S := S32x512) hz, View.ld_unit_zero (S := S1x32) hz, View.ld_unit_zero (S := S1024x32) hz, View.ld_unit_zero (S := S2048x1024) hz, View.ld_unit_zero (S := S2048x32) hz, shapeCast_self]

/-- Last chunk, down-projection accumulator. -/
theorem downC (c : Dev nD) (i : grid0.Coords) (arg3 : Memref sig .tc .vmem S2048x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S32x512 .f32) (harg7 : arg7.IsWhole) (arg8 : Memref sig .tc .vmem S1x32 .f32) (harg8 : arg8.IsWhole) (arg9 : Memref sig .tc .vmem S1024x32 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x32 .f32) (harg12 : arg12.IsWhole) (hc0 : ¬cond0_0 i) (hc1 : cond0_1 i)
    (x0 : Vec F S2048x512 .f32) (x1 : Vec F S1024x512 .i32) (x2 : Vec F S1024x1 .f32) (x3 : Vec F S1x1024 .f32) (x4 : Vec F S32x512 .f32) (x5 : Vec F S1x32 .f32) (x6 : Vec F S1024x32 .f32) (xs0 : Vec F S2048x1024 .f32) (xs1 : Vec F S2048x32 .f32) :
    sout0_C_1 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay6 x0 x4 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S2048x512) hz, View.ld_unit_zero (S := S1024x512) hz, View.ld_unit_zero (S := S1024x1) hz, View.ld_unit_zero (S := S1x1024) hz, View.ld_unit_zero (S := S32x512) hz, View.ld_unit_zero (S := S1x32) hz, View.ld_unit_zero (S := S1024x32) hz, View.ld_unit_zero (S := S2048x1024) hz, View.ld_unit_zero (S := S2048x32) hz, shapeCast_self]

/-- Last chunk, the output block: from the two accumulators as this chunk has just updated them. -/
theorem outC (c : Dev nD) (i : grid0.Coords) (arg3 : Memref sig .tc .vmem S2048x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S32x512 .f32) (harg7 : arg7.IsWhole) (arg8 : Memref sig .tc .vmem S1x32 .f32) (harg8 : arg8.IsWhole) (arg9 : Memref sig .tc .vmem S1024x32 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x32 .f32) (harg12 : arg12.IsWhole) (hc0 : ¬cond0_0 i) (hc1 : cond0_1 i)
    (x0 : Vec F S2048x512 .f32) (x1 : Vec F S1024x512 .i32) (x2 : Vec F S1024x1 .f32) (x3 : Vec F S1x1024 .f32) (x4 : Vec F S32x512 .f32) (x5 : Vec F S1x32 .f32) (x6 : Vec F S1024x32 .f32) (xs0 : Vec F S2048x1024 .f32) (xs1 : Vec F S2048x32 .f32) :
    out0_C_7 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay1 (k0_pay6 x0 x4 xs1) x5 x6 (k0_pay5 x0 x1 x2 xs0) x3 := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readCov_unit_zero (S := S2048x32) _ hz, View.readCov_unit_zero (S := S2048x1024) _ hz, View.readAt_eq_ld, harg3.read_unread, harg4.read_unread, harg5.read_unread, harg6.read_unread, harg7.read_unread, harg8.read_unread, harg9.read_unread, harg10.read_unread, harg11.read_unread, harg12.read_unread, View.ld_unit_zero (S := S2048x512) hz, View.ld_unit_zero (S := S1024x512) hz, View.ld_unit_zero (S := S1024x1) hz, View.ld_unit_zero (S := S1x1024) hz, View.ld_unit_zero (S := S32x512) hz, View.ld_unit_zero (S := S1x32) hz, View.ld_unit_zero (S := S1024x32) hz, View.ld_unit_zero (S := S2048x1024) hz, View.ld_unit_zero (S := S2048x32) hz, shapeCast_self]

end Cert.KernelIdeal.Pieces

end
-- ==== Proof.Steps.lean ====
/-
  The accumulators and the output block after each grid point, as the body's arithmetic.

  The grid runs 8 chunks of the contraction axis innermost. At a point whose chunk number is 0 the two accumulators
  are the chunk's update of the zero blocks; at every other point they are the chunk's update of what the point before
  left; and at a point whose chunk number is 7 the output block is the final expression of the two accumulators as that
  point leaves them.
-/
import proofs.«125677_j25202868093527_1_alg».proof.Proof.Pieces

noncomputable section

namespace Cert.KernelIdeal.Steps

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- At a first chunk the base accumulator is the chunk's update of the zero block. -/
theorem main_first (c : Dev nD) (t : Fin cfg0.N) (h0 : t.val % 8 = 0) :
    (outsAt0 m c t.val t.isLt).2.1 = k0_pay5 (iblk m c 0 t) (iblk m c 1 t) (iblk m c 2 t) (k0_pay2 (F := F)) := by
  have h1 : ¬t.val % 8 = 7 := by omega
  rw [outsAt0_A m c t h0 h1]
  dsimp only
  exact Pieces.mainA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)

/-- At a first chunk the down-projection accumulator is the chunk's update of the zero block. -/
theorem down_first (c : Dev nD) (t : Fin cfg0.N) (h0 : t.val % 8 = 0) :
    (outsAt0 m c t.val t.isLt).2.2 = k0_pay6 (iblk m c 0 t) (iblk m c 4 t) (k0_pay3 (F := F)) := by
  have h1 : ¬t.val % 8 = 7 := by omega
  rw [outsAt0_A m c t h0 h1]
  dsimp only
  exact Pieces.downA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)

/-- At any later chunk the base accumulator is the chunk's update of what the point before left. -/
theorem main_next (c : Dev nD) (t : Fin cfg0.N) (h0 : ¬t.val % 8 = 0) :
    (outsAt0 m c t.val t.isLt).2.1
      = k0_pay5 (iblk m c 0 t) (iblk m c 1 t) (iblk m c 2 t) (outsAt0 m c (t.val - 1) (Nat.lt_of_le_of_lt (Nat.sub_le _ _) t.isLt)).2.1 := by
  by_cases h1 : t.val % 8 = 7
  · rw [outsAt0_C m c t h0 h1]
    dsimp only
    exact Pieces.mainC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact Pieces.mainB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2

/-- At any later chunk the down-projection accumulator is the chunk's update of what the point before left. -/
theorem down_next (c : Dev nD) (t : Fin cfg0.N) (h0 : ¬t.val % 8 = 0) :
    (outsAt0 m c t.val t.isLt).2.2
      = k0_pay6 (iblk m c 0 t) (iblk m c 4 t) (outsAt0 m c (t.val - 1) (Nat.lt_of_le_of_lt (Nat.sub_le _ _) t.isLt)).2.2 := by
  by_cases h1 : t.val % 8 = 7
  · rw [outsAt0_C m c t h0 h1]
    dsimp only
    exact Pieces.downC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact Pieces.downB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2

/-- At a last chunk the output block is the final expression of the two accumulators as that point leaves them. -/
theorem out_last (c : Dev nD) (t : Fin cfg0.N) (h1 : t.val % 8 = 7) :
    (outsAt0 m c t.val t.isLt).1
      = k0_pay1 (outsAt0 m c t.val t.isLt).2.2 (iblk m c 5 t) (iblk m c 6 t) (outsAt0 m c t.val t.isLt).2.1 (iblk m c 3 t) := by
  have h0 : ¬t.val % 8 = 0 := by omega
  rw [main_next m c t h0, down_next m c t h0, outsAt0_C m c t h0 h1]
  dsimp only
  exact Pieces.outC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Steps

end
-- ==== Proof.LibColumnBroadcast.lean ====
/-
  A column broadcast read at an element.

  A `[a, 1]` array broadcast to `[a, b]` repeats its one column `b` times: element (p, c) of the result is the
  column's entry of row `p`, whatever the column `c`. (The companion of the row broadcast `[1, b] → [a, b]`, which reads
  the one row at `c`.) Stated for any extents and any element type.
-/
import Idealize.ShloMosaic.Lib.Pipeline.Value
import Idealize.ShloMosaic.Lib.ValueIdx

namespace Cert.LibLayout

open Idealize.ShloMosaic Idealize.ShloMosaic.ValueIdx

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibLayout
-- ==== Proof.Payload.lean ====
/-
  The body's arithmetic read at one element, over the extended reals.

  Each of the body's three stores writes a pure function of the blocks it loaded. At an element (p, q):
  the base accumulator gains `∑ₗ x[p, l] · (w[q, l] · scale[q])` over the chunk's 512 columns (`w` the integer weight as
  a real; the transposed right factor of the matrix product read back at its source), the down-projection accumulator
  gains `∑ₗ x[p, l] · a[r, l]`, and the final store is `(acc[p, q] + bias[q]) + ∑ᵣ (xa[p, r] · s[r]) · b[q, r]`.
  A change of float format is the identity here, a cast of a block to its own shape likewise.
-/
import proofs.«125677_j25202868093527_1_alg».proof.Proof.Gen.KernelIdeal.Skeleton
import proofs.«125677_j25202868093527_1_alg».proof.Proof.LibColumnBroadcast
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Pay

open Cert.KernelIdeal Cert.KernelIdeal.Gen Idealize.ShloMosaic Idealize.ShloMosaic.ValueIdx Cert.LibLayout

/-! ### The product `[2048, 512] × [512, 1024]` -/

theorem lhs_main_0 (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl
theorem lhs_main_1 (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q
theorem rhs_main_0 (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q
theorem rhs_main_1 (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl

/-- Into a zero accumulator the matrix unit's product at (p, q) is the sum over the inner axis of row `p` of the left
    factor against column `q` of the right. -/
theorem matmul_main_apply {φ₁ φ₂ : FTy} (lhs : FVec Ideal S2048x512 φ₁) (rhs : FVec Ideal S512x1024 φ₂) (p : Fin 2048) (q : Fin 1024) :
    matmul dot_S2048x512_S512x1024_S2048x1024_1_0_0_1_n_n none lhs rhs (constant S2048x1024 .f32 0x00000000#32) (ix2 p q)
      = ∑ k : Fin 512, lhs (ix2 p k) * rhs (ix2 k q) := by
  simp only [matmul]
  rw [Ideal.matmul_constant_zero_apply, ← Equiv.sum_comp (ValueIdx.contrEquiv1 dot_S2048x512_S512x1024_S2048x1024_1_0_0_1_n_n 512 rfl rfl).symm]
  refine Finset.sum_congr rfl fun k _ => ?_
  have hk := ValueIdx.contrEquiv1_symm_val dot_S2048x512_S512x1024_S2048x1024_1_0_0_1_n_n 512 rfl rfl k
  have el : dot_S2048x512_S512x1024_S2048x1024_1_0_0_1_n_n.lhsIdx (ix2 p q) ((ValueIdx.contrEquiv1 dot_S2048x512_S512x1024_S2048x1024_1_0_0_1_n_n 512 rfl rfl).symm k) = ix2 p k := funext fun a => Fin.ext (by
    match a with
    | ⟨0, _⟩ => exact lhs_main_0 _ _
    | ⟨1, _⟩ => exact (lhs_main_1 _ _).trans hk)
  have er : dot_S2048x512_S512x1024_S2048x1024_1_0_0_1_n_n.rhsIdx (ix2 p q) ((ValueIdx.contrEquiv1 dot_S2048x512_S512x1024_S2048x1024_1_0_0_1_n_n 512 rfl rfl).symm k) = ix2 k q := funext fun a => Fin.ext (by
    match a with
    | ⟨0, _⟩ => exact (rhs_main_0 _ _).trans hk
    | ⟨1, _⟩ => exact rhs_main_1 _ _)
  rw [el, er]

/-! ### The product `[2048, 512] × [512, 32]` -/

theorem lhs_down_0 (i : S2048x32.Idx) (q : dot_S2048x512_S512x32_S2048x32_1_0_0_1_n_n.contr.Idx) :
    (dot_S2048x512_S512x32_S2048x32_1_0_0_1_n_n.lhsIdx i q 0).val = (i 0).val := by
  unfold DotDims.lhsIdx
  rw [dif_neg (show ¬(0 : Fin S2048x512.rank) ∈ dot_S2048x512_S512x32_S2048x32_1_0_0_1_n_n.lhsBatch by decide), dif_pos (show (0 : Fin S2048x512.rank) ∈ dot_S2048x512_S512x32_S2048x32_1_0_0_1_n_n.lhsNonContracting by decide)]
  rfl
theorem lhs_down_1 (i : S2048x32.Idx) (q : dot_S2048x512_S512x32_S2048x32_1_0_0_1_n_n.contr.Idx) :
    (dot_S2048x512_S512x32_S2048x32_1_0_0_1_n_n.lhsIdx i q 1).val = (q ⟨0, by decide⟩).val :=
  dot_S2048x512_S512x32_S2048x32_1_0_0_1_n_n.lhsIdx_val_of_single rfl i q
theorem rhs_down_0 (i : S2048x32.Idx) (q : dot_S2048x512_S512x32_S2048x32_1_0_0_1_n_n.contr.Idx) :
    (dot_S2048x512_S512x32_S2048x32_1_0_0_1_n_n.rhsIdx i q 0).val = (q ⟨0, by decide⟩).val :=
  dot_S2048x512_S512x32_S2048x32_1_0_0_1_n_n.rhsIdx_val_of_single rfl i q
theorem rhs_down_1 (i : S2048x32.Idx) (q : dot_S2048x512_S512x32_S2048x32_1_0_0_1_n_n.contr.Idx) :
    (dot_S2048x512_S512x32_S2048x32_1_0_0_1_n_n.rhsIdx i q 1).val = (i 1).val := by
  unfold DotDims.rhsIdx
  rw [dif_neg (show ¬(1 : Fin S512x32.rank) ∈ dot_S2048x512_S512x32_S2048x32_1_0_0_1_n_n.rhsBatch by decide), dif_pos (show (1 : Fin S512x32.rank) ∈ dot_S2048x512_S512x32_S2048x32_1_0_0_1_n_n.rhsNonContracting by decide)]
  rfl

/-- Into a zero accumulator the matrix unit's product at (p, q) is the sum over the inner axis of row `p` of the left
    factor against column `q` of the right. -/
theorem matmul_down_apply {φ₁ φ₂ : FTy} (lhs : FVec Ideal S2048x512 φ₁) (rhs : FVec Ideal S512x32 φ₂) (p : Fin 2048) (q : Fin 32) :
    matmul dot_S2048x512_S512x32_S2048x32_1_0_0_1_n_n none lhs rhs (constant S2048x32 .f32 0x00000000#32) (ix2 p q)
      = ∑ k : Fin 512, lhs (ix2 p k) * rhs (ix2 k q) := by
  simp only [matmul]
  rw [Ideal.matmul_constant_zero_apply, ← Equiv.sum_comp (ValueIdx.contrEquiv1 dot_S2048x512_S512x32_S2048x32_1_0_0_1_n_n 512 rfl rfl).symm]
  refine Finset.sum_congr rfl fun k _ => ?_
  have hk := ValueIdx.contrEquiv1_symm_val dot_S2048x512_S512x32_S2048x32_1_0_0_1_n_n 512 rfl rfl k
  have el : dot_S2048x512_S512x32_S2048x32_1_0_0_1_n_n.lhsIdx (ix2 p q) ((ValueIdx.contrEquiv1 dot_S2048x512_S512x32_S2048x32_1_0_0_1_n_n 512 rfl rfl).symm k) = ix2 p k := funext fun a => Fin.ext (by
    match a with
    | ⟨0, _⟩ => exact lhs_down_0 _ _
    | ⟨1, _⟩ => exact (lhs_down_1 _ _).trans hk)
  have er : dot_S2048x512_S512x32_S2048x32_1_0_0_1_n_n.rhsIdx (ix2 p q) ((ValueIdx.contrEquiv1 dot_S2048x512_S512x32_S2048x32_1_0_0_1_n_n 512 rfl rfl).symm k) = ix2 k q := funext fun a => Fin.ext (by
    match a with
    | ⟨0, _⟩ => exact (rhs_down_0 _ _).trans hk
    | ⟨1, _⟩ => exact rhs_down_1 _ _)
  rw [el, er]

/-! ### The product `[2048, 32] × [32, 1024]` -/

theorem lhs_up_0 (i : S2048x1024.Idx) (q : dot_S2048x32_S32x1024_S2048x1024_1_0_0_1_n_n.contr.Idx) :
    (dot_S2048x32_S32x1024_S2048x1024_1_0_0_1_n_n.lhsIdx i q 0).val = (i 0).val := by
  unfold DotDims.lhsIdx
  rw [dif_neg (show ¬(0 : Fin S2048x32.rank) ∈ dot_S2048x32_S32x1024_S2048x1024_1_0_0_1_n_n.lhsBatch by decide), dif_pos (show (0 : Fin S2048x32.rank) ∈ dot_S2048x32_S32x1024_S2048x1024_1_0_0_1_n_n.lhsNonContracting by decide)]
  rfl
theorem lhs_up_1 (i : S2048x1024.Idx) (q : dot_S2048x32_S32x1024_S2048x1024_1_0_0_1_n_n.contr.Idx) :
    (dot_S2048x32_S32x1024_S2048x1024_1_0_0_1_n_n.lhsIdx i q 1).val = (q ⟨0, by decide⟩).val :=
  dot_S2048x32_S32x1024_S2048x1024_1_0_0_1_n_n.lhsIdx_val_of_single rfl i q
theorem rhs_up_0 (i : S2048x1024.Idx) (q : dot_S2048x32_S32x1024_S2048x1024_1_0_0_1_n_n.contr.Idx) :
    (dot_S2048x32_S32x1024_S2048x1024_1_0_0_1_n_n.rhsIdx i q 0).val = (q ⟨0, by decide⟩).val :=
  dot_S2048x32_S32x1024_S2048x1024_1_0_0_1_n_n.rhsIdx_val_of_single rfl i q
theorem rhs_up_1 (i : S2048x1024.Idx) (q : dot_S2048x32_S32x1024_S2048x1024_1_0_0_1_n_n.contr.Idx) :
    (dot_S2048x32_S32x1024_S2048x1024_1_0_0_1_n_n.rhsIdx i q 1).val = (i 1).val := by
  unfold DotDims.rhsIdx
  rw [dif_neg (show ¬(1 : Fin S32x1024.rank) ∈ dot_S2048x32_S32x1024_S2048x1024_1_0_0_1_n_n.rhsBatch by decide), dif_pos (show (1 : Fin S32x1024.rank) ∈ dot_S2048x32_S32x1024_S2048x1024_1_0_0_1_n_n.rhsNonContracting by decide)]
  rfl

/-- Into a zero accumulator the matrix unit's product at (p, q) is the sum over the inner axis of row `p` of the left
    factor against column `q` of the right. -/
theorem matmul_up_apply {φ₁ φ₂ : FTy} (lhs : FVec Ideal S2048x32 φ₁) (rhs : FVec Ideal S32x1024 φ₂) (p : Fin 2048) (q : Fin 1024) :
    matmul dot_S2048x32_S32x1024_S2048x1024_1_0_0_1_n_n none lhs rhs (constant S2048x1024 .f32 0x00000000#32) (ix2 p q)
      = ∑ k : Fin 32, lhs (ix2 p k) * rhs (ix2 k q) := by
  simp only [matmul]
  rw [Ideal.matmul_constant_zero_apply, ← Equiv.sum_comp (ValueIdx.contrEquiv1 dot_S2048x32_S32x1024_S2048x1024_1_0_0_1_n_n 32 rfl rfl).symm]
  refine Finset.sum_congr rfl fun k _ => ?_
  have hk := ValueIdx.contrEquiv1_symm_val dot_S2048x32_S32x1024_S2048x1024_1_0_0_1_n_n 32 rfl rfl k
  have el : dot_S2048x32_S32x1024_S2048x1024_1_0_0_1_n_n.lhsIdx (ix2 p q) ((ValueIdx.contrEquiv1 dot_S2048x32_S32x1024_S2048x1024_1_0_0_1_n_n 32 rfl rfl).symm k) = ix2 p k := funext fun a => Fin.ext (by
    match a with
    | ⟨0, _⟩ => exact lhs_up_0 _ _
    | ⟨1, _⟩ => exact (lhs_up_1 _ _).trans hk)
  have er : dot_S2048x32_S32x1024_S2048x1024_1_0_0_1_n_n.rhsIdx (ix2 p q) ((ValueIdx.contrEquiv1 dot_S2048x32_S32x1024_S2048x1024_1_0_0_1_n_n 32 rfl rfl).symm k) = ix2 k q := funext fun a => Fin.ext (by
    match a with
    | ⟨0, _⟩ => exact (rhs_up_0 _ _).trans hk
    | ⟨1, _⟩ => exact rhs_up_1 _ _)
  rw [el, er]

/-! ## The three stores at an element -/

/-- The zero blocks the first chunk's reset stores. -/
theorem pay2_apply (j : S2048x1024.Idx) : (k0_pay2 (F := Ideal)) j = 0 := by
  unfold k0_pay2
  simp only [shapeCast_self]
  exact Ideal.ofBits_zero_f32
theorem pay3_apply (j : S2048x32.Idx) : (k0_pay3 (F := Ideal)) j = 0 := by
  unfold k0_pay3
  simp only [shapeCast_self]
  exact Ideal.ofBits_zero_f32

/-- The base accumulator after a chunk: what it held plus the chunk's term. -/
theorem pay5_apply (x0 : Vec Ideal S2048x512 .f32) (x1 : Vec Ideal S1024x512 .i32) (x2 : Vec Ideal S1024x1 .f32)
    (acc : Vec Ideal S2048x1024 .f32) (p : Fin 2048) (q : Fin 1024) :
    k0_pay5 x0 x1 x2 acc (ix2 p q)
      = acc (ix2 p q) + ∑ l : Fin 512, x0 (ix2 p l) * (FloatOps.sitofp (F := Ideal) .f32 (x1 (ix2 q l)) * x2 (ix2 q (0 : Fin 1))) := by
  unfold k0_pay5 k0_pay4
  simp only [shapeCast_self]
  refine congrArg (acc (ix2 p q) + ·) ?_
  refine (matmul_main_apply _ _ p q).trans ?_
  refine Finset.sum_congr rfl fun l _ => ?_
  refine congrArg (x0 (ix2 p l) * ·) ?_
  refine (transpose_ix2_apply _ transposes_S1024x512_p1_0_S512x1024 l q).trans ?_
  exact congrArg (FloatOps.sitofp (F := Ideal) .f32 (x1 (ix2 q l)) * ·) (broadcastTo_a1_ab_apply x2 broadcasts_S1024x1_S1024x512 q l)

/-- The down-projection accumulator after a chunk. -/
theorem pay6_apply (x0 : Vec Ideal S2048x512 .f32) (x4 : Vec Ideal S32x512 .f32) (acc : Vec Ideal S2048x32 .f32)
    (p : Fin 2048) (r : Fin 32) :
    k0_pay6 x0 x4 acc (ix2 p r) = acc (ix2 p r) + ∑ l : Fin 512, x0 (ix2 p l) * x4 (ix2 r l) := by
  unfold k0_pay6 k0_pay4
  simp only [shapeCast_self]
  refine congrArg (acc (ix2 p r) + ·) ?_
  refine (matmul_down_apply _ _ p r).trans ?_
  refine Finset.sum_congr rfl fun l _ => ?_
  refine congrArg (x0 (ix2 p l) * ·) ?_
  exact transpose_ix2_apply _ transposes_S32x512_p1_0_S512x32 l r

/-- The output block: the base sum plus the bias, plus the up-projection of the scaled down-projection. -/
theorem pay1_apply (xa : Vec Ideal S2048x32 .f32) (s : Vec Ideal S1x32 .f32) (b : Vec Ideal S1024x32 .f32)
    (acc : Vec Ideal S2048x1024 .f32) (bias : Vec Ideal S1x1024 .f32) (p : Fin 2048) (q : Fin 1024) :
    k0_pay1 xa s b acc bias (ix2 p q)
      = (acc (ix2 p q) + bias (ix2 (0 : Fin 1) q)) + ∑ r : Fin 32, (xa (ix2 p r) * s (ix2 (0 : Fin 1) r)) * b (ix2 q r) := by
  unfold k0_pay1
  simp only [shapeCast_self]
  refine congrArg₂ (· + ·) ?_ ?_
  · exact congrArg (acc (ix2 p q) + ·) (broadcastTo_1b_ab_apply bias broadcasts_S1x1024_S2048x1024 p q)
  · refine (matmul_up_apply _ _ p q).trans ?_
    refine Finset.sum_congr rfl fun r _ => ?_
    refine congrArg₂ (· * ·) ?_ ?_
    · exact congrArg (xa (ix2 p r) * ·) (broadcastTo_1b_ab_apply s broadcasts_S1x32_S2048x32 p r)
    · exact transpose_ix2_apply _ transposes_S1024x32_p1_0_S32x1024 r q

end Cert.KernelIdeal.Pay

end
-- ==== Proof.Spec.lean ====
/-
  The mathematics of the quantized linear layer with a low-rank correction, over the extended reals.

  For a row `r` of the flattened activations `X` [8192, 4096] and an output channel `o`:

      lin r o = (∑ₖ X r k · W o k + bias o) + ∑_q ((∑ₖ X r k · A q k) · S q) · B o q,

  with `W o k` the dequantized weight (the integer weight as a real, times the channel's scale), `A` [32, 4096],
  `S` [32] and `B` [4096, 32] the low-rank factors. The contraction axis of length 4096 is walked in 8 consecutive
  chunks of 512 columns (`kcol k l = 512·k + l`); a running sum that starts at the first chunk's term and adds one chunk
  at a time ends, after the eighth, at the whole sum. Only commutativity and associativity of `+` are used, so nothing
  here asks the summands to be finite.
-/
import Idealize.ShloMosaic.PureOps.Ideal
import Idealize.ShloMosaic.Lib.ValueIdx

noncomputable section

namespace Cert.QLin

open Idealize.ShloMosaic Idealize.ShloMosaic.ValueIdx

/-! ## Chunks of the contraction axis -/

/-- Column `512·k + l` of the contraction axis: column `l` of chunk `k`. -/
def kcol (k : Fin 8) (l : Fin 512) : Fin 4096 := ⟨512 * k.val + l.val, by omega⟩

theorem kcol_val (k : Fin 8) (l : Fin 512) : (kcol k l).val = 512 * k.val + l.val := rfl

/-- A sum over the 4096 columns is the sum over the 8 chunks of the sums over each chunk's 512 columns. -/
theorem sum_kcol {M : Type*} [AddCommMonoid M] (g : Fin 4096 → M) :
    ∑ k : Fin 8, ∑ l : Fin 512, g (kcol k l) = ∑ kk : Fin 4096, g kk := by
  have e : Fin 8 × Fin 512 ≃ Fin 4096 := finProdFinEquiv
  have he : ∀ k l, (finProdFinEquiv (k, l) : Fin (8 * 512)) = kcol k l := fun k l =>
    Fin.ext (by rw [finProdFinEquiv_apply_val, kcol_val]; dsimp only; omega)
  rw [← Fintype.sum_prod_type' (fun k l => g (kcol k l))]
  refine Fintype.sum_equiv (finProdFinEquiv (m := 8) (n := 512)) _ _ fun p => ?_
  obtain ⟨k, l⟩ := p
  exact congrArg g (he k l).symm

/-! ## A running sum over the chunks -/

/-- The sum of the terms of chunks `0 … k`. -/
def partialSum {M : Type*} [AddCommMonoid M] (f : Fin 8 → M) (k : ℕ) : M :=
  ∑ x ∈ Finset.range (k + 1), if h : x < 8 then f ⟨x, h⟩ else 0

theorem partialSum_zero {M : Type*} [AddCommMonoid M] (f : Fin 8 → M) : partialSum f 0 = f 0 := by
  unfold partialSum
  rw [Finset.sum_range_one, dif_pos (by omega)]
  rfl

theorem partialSum_succ {M : Type*} [AddCommMonoid M] (f : Fin 8 → M) (k : ℕ) (h : k + 1 < 8) :
    partialSum f (k + 1) = partialSum f k + f ⟨k + 1, h⟩ := by
  unfold partialSum
  rw [Finset.sum_range_succ _ (k + 1), dif_pos h]

theorem partialSum_seven {M : Type*} [AddCommMonoid M] (f : Fin 8 → M) : partialSum f 7 = ∑ k, f k := by
  unfold partialSum
  rw [Finset.sum_range (fun x => if h : x < 8 then f ⟨x, h⟩ else 0)]
  exact Finset.sum_congr rfl fun k _ => by rw [dif_pos k.isLt]

/-! ## The layer -/

section
variable (X : Fin 8192 → Fin 4096 → EReal) (W : Fin 4096 → Fin 4096 → EReal) (bias : Fin 4096 → EReal)
  (A : Fin 32 → Fin 4096 → EReal) (S : Fin 32 → EReal) (B : Fin 4096 → Fin 32 → EReal)

/-- Row `r`, channel `o` of the layer's output. -/
def lin (r : Fin 8192) (o : Fin 4096) : EReal :=
  (∑ kk, X r kk * W o kk + bias o) + ∑ q : Fin 32, ((∑ kk, X r kk * A q kk) * S q) * B o q

/-- Chunk `k`'s term of the base product at (r, o). -/
def mainBlk (r : Fin 8192) (o : Fin 4096) (k : Fin 8) : EReal := ∑ l : Fin 512, X r (kcol k l) * W o (kcol k l)

/-- Chunk `k`'s term of the down-projection at (r, q). -/
def xaBlk (r : Fin 8192) (q : Fin 32) (k : Fin 8) : EReal := ∑ l : Fin 512, X r (kcol k l) * A q (kcol k l)

/-- The layer from the two running sums after the eighth chunk. -/
theorem lin_eq_blocks (r : Fin 8192) (o : Fin 4096) :
    (partialSum (mainBlk X W r o) 7 + bias o) + ∑ q : Fin 32, (partialSum (xaBlk X A r q) 7 * S q) * B o q
      = lin X W bias A S B r o := by
  unfold lin
  rw [partialSum_seven]
  unfold mainBlk
  rw [sum_kcol (fun kk => X r kk * W o kk)]
  refine congrArg _ (Finset.sum_congr rfl fun q _ => ?_)
  rw [partialSum_seven]
  unfold xaBlk
  rw [sum_kcol (fun kk => X r kk * A q kk)]

end

/-! ## Rows of the flattened activations -/

/-- Row `2048·b + s` of the flattened [8192, 4096] activations is position `s` of batch `b`. -/
def row (b : Fin 4) (s : Fin 2048) : Fin 8192 := ⟨2048 * b.val + s.val, by omega⟩
def rowB (r : Fin 8192) : Fin 4 := ⟨r.val / 2048, by omega⟩
def rowS (r : Fin 8192) : Fin 2048 := ⟨r.val % 2048, by omega⟩

theorem rowB_row (b : Fin 4) (s : Fin 2048) : rowB (row b s) = b := Fin.ext (by show (2048 * b.val + s.val) / 2048 = b.val; omega)
theorem rowS_row (b : Fin 4) (s : Fin 2048) : rowS (row b s) = s := Fin.ext (by show (2048 * b.val + s.val) % 2048 = s.val; omega)
theorem row_val (b : Fin 4) (s : Fin 2048) : (row b s).val = 2048 * b.val + s.val := rfl

end Cert.QLin

end
-- ==== Proof.Fold.lean ====
/-
  The two accumulators after every grid point, and the output block after a last chunk, as sums over the arrays the
  region finds.

  Point `n` of the grid `[4, 4, 8]` works on row block `n / 32`, channel block `n / 8 % 4` and chunk `n % 8` of the
  contraction axis: row `p` of its activation block is row `2048·(n/32) + p` of the flattened activations, row `q` of its
  weight block is output channel `1024·(n/8 % 4) + q`, and column `l` of either is column `512·(n % 8) + l`. By induction
  on the point, after point `n` the base accumulator holds at (p, q) the sum of the terms of chunks `0 … n % 8`, and the
  down-projection accumulator likewise: a first chunk starts from the zero block (`0 + x = x`), a later chunk adds its
  term to what the point before left, and the point before works on the same rows and channels. After a last chunk both
  sums are whole, and the output block is the layer's value.
-/
import proofs.«125677_j25202868093527_1_alg».proof.Proof.Steps
import proofs.«125677_j25202868093527_1_alg».proof.Proof.Payload
import proofs.«125677_j25202868093527_1_alg».proof.Proof.Spec

noncomputable section

namespace Cert.KernelIdeal.Fold

open Cert.KernelIdeal Cert.KernelIdeal.Gen Idealize.ShloMosaic Idealize.ShloMosaic.TcCoe Idealize.SL.Sem
open Idealize.ShloMosaic.ValueIdx Cert.QLin

variable (m : (ℓ : Loc nD τ sig) → Buf (Elt Ideal) ℓ)

/-! ## The arrays as the region finds them -/

abbrev xarr (c : Dev nD) : Vec Ideal S8192x4096 .f32 := V m c main_v0
abbrev wqarr (c : Dev nD) : Vec Ideal S4096x4096 .i32 := V m c main_arg1
abbrev wsarr (c : Dev nD) : Vec Ideal S4096x1 .f32 := V m c main_v1
abbrev biarr (c : Dev nD) : Vec Ideal S1x4096 .f32 := V m c main_v2
abbrev aarr (c : Dev nD) : Vec Ideal S32x4096 .f32 := V m c main_arg4
abbrev sarr (c : Dev nD) : Vec Ideal S1x32 .f32 := V m c main_v3
abbrev bbarr (c : Dev nD) : Vec Ideal S4096x32 .f32 := V m c main_arg6

/-- The point's blocks, by their literal types. -/
abbrev xblk (c : Dev nD) (t : Fin cfg0.N) : Vec Ideal S2048x512 .f32 := iblk m c 0 t
abbrev wqblk (c : Dev nD) (t : Fin cfg0.N) : Vec Ideal S1024x512 .i32 := iblk m c 1 t
abbrev wsblk (c : Dev nD) (t : Fin cfg0.N) : Vec Ideal S1024x1 .f32 := iblk m c 2 t
abbrev biblk (c : Dev nD) (t : Fin cfg0.N) : Vec Ideal S1x1024 .f32 := iblk m c 3 t
abbrev ablk (c : Dev nD) (t : Fin cfg0.N) : Vec Ideal S32x512 .f32 := iblk m c 4 t
abbrev sblk (c : Dev nD) (t : Fin cfg0.N) : Vec Ideal S1x32 .f32 := iblk m c 5 t
abbrev bbblk (c : Dev nD) (t : Fin cfg0.N) : Vec Ideal S1024x32 .f32 := iblk m c 6 t

/-- The flattened activations, the dequantized weight, the bias and the low-rank factors, by coordinates. -/
def X (c : Dev nD) : Fin 8192 → Fin 4096 → EReal := fun r k => xarr m c (ix2 r k)
def W (c : Dev nD) : Fin 4096 → Fin 4096 → EReal := fun o k =>
  FloatOps.sitofp (F := Ideal) .f32 (wqarr m c (ix2 o k)) * wsarr m c (ix2 o (0 : Fin 1))
def Bias (c : Dev nD) : Fin 4096 → EReal := fun o => biarr m c (ix2 (0 : Fin 1) o)
def A (c : Dev nD) : Fin 32 → Fin 4096 → EReal := fun q k => aarr m c (ix2 q k)
def S (c : Dev nD) : Fin 32 → EReal := fun q => sarr m c (ix2 (0 : Fin 1) q)
def B (c : Dev nD) : Fin 4096 → Fin 32 → EReal := fun o q => bbarr m c (ix2 o q)

/-! ## A point's rows, channels and chunk -/

def grow (n : ℕ) (p : Fin 2048) : Fin 8192 := ⟨2048 * (n / 32 % 4) + p.val, by omega⟩
def gcol (n : ℕ) (q : Fin 1024) : Fin 4096 := ⟨1024 * (n / 8 % 4) + q.val, by omega⟩
def chunk (n : ℕ) : Fin 8 := ⟨n % 8, by omega⟩

/-- The printed index maps, decided over the grid. -/
theorem idx_facts : ∀ t : Fin cfg0.N,
    (win0_0.index t (0 : Fin 2) = t.val / 32 % 4 ∧ win0_0.index t (1 : Fin 2) = t.val % 8)
    ∧ (win0_1.index t (0 : Fin 2) = t.val / 8 % 4 ∧ win0_1.index t (1 : Fin 2) = t.val % 8)
    ∧ (win0_2.index t (0 : Fin 2) = t.val / 8 % 4 ∧ win0_2.index t (1 : Fin 2) = 0)
    ∧ (win0_3.index t (0 : Fin 2) = 0 ∧ win0_3.index t (1 : Fin 2) = t.val / 8 % 4)
    ∧ (win0_4.index t (0 : Fin 2) = 0 ∧ win0_4.index t (1 : Fin 2) = t.val % 8)
    ∧ (win0_5.index t (0 : Fin 2) = 0 ∧ win0_5.index t (1 : Fin 2) = 0)
    ∧ (win0_6.index t (0 : Fin 2) = t.val / 8 % 4 ∧ win0_6.index t (1 : Fin 2) = 0)
    ∧ (win0_7.index t (0 : Fin 2) = t.val / 32 % 4 ∧ win0_7.index t (1 : Fin 2) = t.val / 8 % 4) :=
  (by decide +kernel : ∀ t : Fin grid0.N, _)

/-! ## The blocks, read off the arrays -/

theorem xblk_apply (c : Dev nD) (t : Fin cfg0.N) (p : Fin 2048) (l : Fin 512) :
    xblk m c t (ix2 p l) = X m c (grow t.val p) (kcol (chunk t.val) l) := by
  unfold xblk iblk
  rw [View.read_apply]
  show xarr m c _ = xarr m c (ix2 (grow t.val p) (kcol (chunk t.val) l))
  refine congrArg (xarr m c) (funext fun a => Fin.ext ?_)
  have h := (idx_facts t).1
  match a with
  | ⟨0, _⟩ => show win0_0.index t (0 : Fin 2) * 2048 + 1 * p.val = 2048 * (t.val / 32 % 4) + p.val; rw [h.1]; omega
  | ⟨1, _⟩ => show win0_0.index t (1 : Fin 2) * 512 + 1 * l.val = 512 * (t.val % 8) + l.val; rw [h.2]; omega

theorem wqblk_apply (c : Dev nD) (t : Fin cfg0.N) (q : Fin 1024) (l : Fin 512) :
    wqblk m c t (ix2 q l) = wqarr m c (ix2 (gcol t.val q) (kcol (chunk t.val) l)) := by
  unfold wqblk iblk
  rw [View.read_apply]
  show wqarr m c _ = wqarr m c _
  refine congrArg (wqarr m c) (funext fun a => Fin.ext ?_)
  have h := (idx_facts t).2.1
  match a with
  | ⟨0, _⟩ => show win0_1.index t (0 : Fin 2) * 1024 + 1 * q.val = 1024 * (t.val / 8 % 4) + q.val; rw [h.1]; omega
  | ⟨1, _⟩ => show win0_1.index t (1 : Fin 2) * 512 + 1 * l.val = 512 * (t.val % 8) + l.val; rw [h.2]; omega

theorem wsblk_apply (c : Dev nD) (t : Fin cfg0.N) (q : Fin 1024) :
    wsblk m c t (ix2 q (0 : Fin 1)) = wsarr m c (ix2 (gcol t.val q) (0 : Fin 1)) := by
  unfold wsblk iblk
  rw [View.read_apply]
  show wsarr m c _ = wsarr m c _
  refine congrArg (wsarr m c) (funext fun a => Fin.ext ?_)
  have h := (idx_facts t).2.2.1
  match a with
  | ⟨0, _⟩ => show win0_2.index t (0 : Fin 2) * 1024 + 1 * q.val = 1024 * (t.val / 8 % 4) + q.val; rw [h.1]; omega
  | ⟨1, _⟩ => show win0_2.index t (1 : Fin 2) * 1 + 1 * 0 = 0; rw [h.2]

theorem biblk_apply (c : Dev nD) (t : Fin cfg0.N) (q : Fin 1024) :
    biblk m c t (ix2 (0 : Fin 1) q) = Bias m c (gcol t.val q) := by
  unfold biblk iblk
  rw [View.read_apply]
  show biarr m c _ = biarr m c (ix2 (0 : Fin 1) (gcol t.val q))
  refine congrArg (biarr m c) (funext fun a => Fin.ext ?_)
  have h := (idx_facts t).2.2.2.1
  match a with
  | ⟨0, _⟩ => show win0_3.index t (0 : Fin 2) * 1 + 1 * 0 = 0; rw [h.1]
  | ⟨1, _⟩ => show win0_3.index t (1 : Fin 2) * 1024 + 1 * q.val = 1024 * (t.val / 8 % 4) + q.val; rw [h.2]; omega

theorem ablk_apply (c : Dev nD) (t : Fin cfg0.N) (r : Fin 32) (l : Fin 512) :
    ablk m c t (ix2 r l) = A m c r (kcol (chunk t.val) l) := by
  unfold ablk iblk
  rw [View.read_apply]
  show aarr m c _ = aarr m c (ix2 r (kcol (chunk t.val) l))
  refine congrArg (aarr m c) (funext fun a => Fin.ext ?_)
  have h := (idx_facts t).2.2.2.2.1
  match a with
  | ⟨0, _⟩ => show win0_4.index t (0 : Fin 2) * 32 + 1 * r.val = r.val; rw [h.1]; omega
  | ⟨1, _⟩ => show win0_4.index t (1 : Fin 2) * 512 + 1 * l.val = 512 * (t.val % 8) + l.val; rw [h.2]; omega

theorem sblk_apply (c : Dev nD) (t : Fin cfg0.N) (r : Fin 32) :
    sblk m c t (ix2 (0 : Fin 1) r) = S m c r := by
  unfold sblk iblk
  rw [View.read_apply]
  show sarr m c _ = sarr m c (ix2 (0 : Fin 1) r)
  refine congrArg (sarr m c) (funext fun a => Fin.ext ?_)
  have h := (idx_facts t).2.2.2.2.2.1
  match a with
  | ⟨0, _⟩ => show win0_5.index t (0 : Fin 2) * 1 + 1 * 0 = 0; rw [h.1]
  | ⟨1, _⟩ => show win0_5.index t (1 : Fin 2) * 32 + 1 * r.val = r.val; rw [h.2]; omega

theorem bbblk_apply (c : Dev nD) (t : Fin cfg0.N) (q : Fin 1024) (r : Fin 32) :
    bbblk m c t (ix2 q r) = B m c (gcol t.val q) r := by
  unfold bbblk iblk
  rw [View.read_apply]
  show bbarr m c _ = bbarr m c (ix2 (gcol t.val q) r)
  refine congrArg (bbarr m c) (funext fun a => Fin.ext ?_)
  have h := (idx_facts t).2.2.2.2.2.2.1
  match a with
  | ⟨0, _⟩ => show win0_6.index t (0 : Fin 2) * 1024 + 1 * q.val = 1024 * (t.val / 8 % 4) + q.val; rw [h.1]; omega
  | ⟨1, _⟩ => show win0_6.index t (1 : Fin 2) * 32 + 1 * r.val = r.val; rw [h.2]; omega

/-! ## A chunk's terms, from the point's blocks -/

theorem main_chunk (c : Dev nD) (t : Fin cfg0.N) (p : Fin 2048) (q : Fin 1024) :
    ∑ l : Fin 512, xblk m c t (ix2 p l)
        * (FloatOps.sitofp (F := Ideal) .f32 (wqblk m c t (ix2 q l))
            * wsblk m c t (ix2 q (0 : Fin 1)))
      = mainBlk (X m c) (W m c) (grow t.val p) (gcol t.val q) (chunk t.val) := by
  unfold mainBlk
  refine Finset.sum_congr rfl fun l _ => ?_
  rw [xblk_apply m c t p l, wqblk_apply m c t q l, wsblk_apply m c t q]
  rfl

theorem down_chunk (c : Dev nD) (t : Fin cfg0.N) (p : Fin 2048) (r : Fin 32) :
    ∑ l : Fin 512, xblk m c t (ix2 p l) * ablk m c t (ix2 r l)
      = xaBlk (X m c) (A m c) (grow t.val p) r (chunk t.val) := by
  unfold xaBlk
  refine Finset.sum_congr rfl fun l _ => ?_
  rw [xblk_apply m c t p l, ablk_apply m c t r l]

/-! ## The accumulators after point `n` -/

/-- The base accumulator after point `n`: at (p, q) the terms of chunks `0 … n % 8` of the point's rows and channels. -/
def mainAt (c : Dev nD) (n : ℕ) : Vec Ideal S2048x1024 .f32 := fun j =>
  partialSum (mainBlk (X m c) (W m c) (grow n (j 0)) (gcol n (j 1))) (n % 8)

/-- The down-projection accumulator after point `n`. -/
def downAt (c : Dev nD) (n : ℕ) : Vec Ideal S2048x32 .f32 := fun j =>
  partialSum (xaBlk (X m c) (A m c) (grow n (j 0)) (j 1)) (n % 8)

theorem main_first (c : Dev nD) (t : Fin cfg0.N) (h0 : t.val % 8 = 0) :
    (outsAt0 m c t.val t.isLt).2.1 = mainAt m c t.val := by
  rw [Steps.main_first m c t h0]
  funext j
  obtain ⟨p, q, rfl⟩ : ∃ (p : Fin 2048) (q : Fin 1024), j = ix2 p q := ⟨j 0, j 1, eq_ix2 j⟩
  refine (Pay.pay5_apply (xblk m c t) (wqblk m c t) (wsblk m c t) (k0_pay2 (F := Ideal)) p q).trans ?_
  rw [Pay.pay2_apply, zero_add, main_chunk m c t p q]
  show _ = partialSum (mainBlk (X m c) (W m c) (grow t.val p) (gcol t.val q)) (t.val % 8)
  have hk : chunk t.val = (0 : Fin 8) := Fin.ext h0
  rw [h0, partialSum_zero, hk]

theorem down_first (c : Dev nD) (t : Fin cfg0.N) (h0 : t.val % 8 = 0) :
    (outsAt0 m c t.val t.isLt).2.2 = downAt m c t.val := by
  rw [Steps.down_first m c t h0]
  funext j
  obtain ⟨p, r, rfl⟩ : ∃ (p : Fin 2048) (r : Fin 32), j = ix2 p r := ⟨j 0, j 1, eq_ix2 j⟩
  refine (Pay.pay6_apply (xblk m c t) (ablk m c t) (k0_pay3 (F := Ideal)) p r).trans ?_
  rw [Pay.pay3_apply, zero_add, down_chunk m c t p r]
  show _ = partialSum (xaBlk (X m c) (A m c) (grow t.val p) r) (t.val % 8)
  have hk : chunk t.val = (0 : Fin 8) := Fin.ext h0
  rw [h0, partialSum_zero, hk]

theorem main_next (c : Dev nD) (n : ℕ) (hn : n + 1 < cfg0.N) (h0 : ¬(n + 1) % 8 = 0)
    (ih : (outsAt0 m c n (Nat.lt_of_succ_lt hn)).2.1 = mainAt m c n) :
    (outsAt0 m c (n + 1) hn).2.1 = mainAt m c (n + 1) := by
  have e := Steps.main_next m c ⟨n + 1, hn⟩ h0
  refine e.trans ?_
  show k0_pay5 (iblk m c 0 ⟨n + 1, hn⟩) (iblk m c 1 ⟨n + 1, hn⟩) (iblk m c 2 ⟨n + 1, hn⟩) (outsAt0 m c n (Nat.lt_of_succ_lt hn)).2.1 = _
  rw [ih]
  funext j
  obtain ⟨p, q, rfl⟩ : ∃ (p : Fin 2048) (q : Fin 1024), j = ix2 p q := ⟨j 0, j 1, eq_ix2 j⟩
  refine (Pay.pay5_apply (xblk m c ⟨n + 1, hn⟩) (wqblk m c ⟨n + 1, hn⟩) (wsblk m c ⟨n + 1, hn⟩) (mainAt m c n) p q).trans ?_
  rw [main_chunk m c ⟨n + 1, hn⟩ p q]
  show partialSum (mainBlk (X m c) (W m c) (grow n p) (gcol n q)) (n % 8) + mainBlk (X m c) (W m c) (grow (n + 1) p) (gcol (n + 1) q) (chunk (n + 1))
    = partialSum (mainBlk (X m c) (W m c) (grow (n + 1) p) (gcol (n + 1) q)) ((n + 1) % 8)
  have hg : grow n p = grow (n + 1) p := Fin.ext (by show 2048 * (n / 32 % 4) + p.val = 2048 * ((n + 1) / 32 % 4) + p.val; omega)
  have hc : gcol n q = gcol (n + 1) q := Fin.ext (by show 1024 * (n / 8 % 4) + q.val = 1024 * ((n + 1) / 8 % 4) + q.val; omega)
  have hk : (n + 1) % 8 = n % 8 + 1 := by omega
  have hlt : n % 8 + 1 < 8 := by omega
  have hch : chunk (n + 1) = ⟨n % 8 + 1, hlt⟩ := Fin.ext (by show (n + 1) % 8 = n % 8 + 1; exact hk)
  rw [hg, hc, hk, partialSum_succ _ _ hlt, hch]

theorem down_next (c : Dev nD) (n : ℕ) (hn : n + 1 < cfg0.N) (h0 : ¬(n + 1) % 8 = 0)
    (ih : (outsAt0 m c n (Nat.lt_of_succ_lt hn)).2.2 = downAt m c n) :
    (outsAt0 m c (n + 1) hn).2.2 = downAt m c (n + 1) := by
  have e := Steps.down_next m c ⟨n + 1, hn⟩ h0
  refine e.trans ?_
  show k0_pay6 (iblk m c 0 ⟨n + 1, hn⟩) (iblk m c 4 ⟨n + 1, hn⟩) (outsAt0 m c n (Nat.lt_of_succ_lt hn)).2.2 = _
  rw [ih]
  funext j
  obtain ⟨p, r, rfl⟩ : ∃ (p : Fin 2048) (r : Fin 32), j = ix2 p r := ⟨j 0, j 1, eq_ix2 j⟩
  refine (Pay.pay6_apply (xblk m c ⟨n + 1, hn⟩) (ablk m c ⟨n + 1, hn⟩) (downAt m c n) p r).trans ?_
  rw [down_chunk m c ⟨n + 1, hn⟩ p r]
  show partialSum (xaBlk (X m c) (A m c) (grow n p) r) (n % 8) + xaBlk (X m c) (A m c) (grow (n + 1) p) r (chunk (n + 1))
    = partialSum (xaBlk (X m c) (A m c) (grow (n + 1) p) r) ((n + 1) % 8)
  have hg : grow n p = grow (n + 1) p := Fin.ext (by show 2048 * (n / 32 % 4) + p.val = 2048 * ((n + 1) / 32 % 4) + p.val; omega)
  have hk : (n + 1) % 8 = n % 8 + 1 := by omega
  have hlt : n % 8 + 1 < 8 := by omega
  have hch : chunk (n + 1) = ⟨n % 8 + 1, hlt⟩ := Fin.ext (by show (n + 1) % 8 = n % 8 + 1; exact hk)
  rw [hg, hk, partialSum_succ _ _ hlt, hch]

/-- After every point the two accumulators hold the running sums: by induction on the point. -/
theorem acc_eq (c : Dev nD) : ∀ (n : ℕ) (hn : n < cfg0.N),
    (outsAt0 m c n hn).2.1 = mainAt m c n ∧ (outsAt0 m c n hn).2.2 = downAt m c n
  | 0, hn => ⟨main_first m c ⟨0, hn⟩ rfl, down_first m c ⟨0, hn⟩ rfl⟩
  | n + 1, hn => by
    have ih := acc_eq c n (Nat.lt_of_succ_lt hn)
    by_cases h0 : (n + 1) % 8 = 0
    · exact ⟨main_first m c ⟨n + 1, hn⟩ h0, down_first m c ⟨n + 1, hn⟩ h0⟩
    · exact ⟨main_next m c n hn h0 ih.1, down_next m c n hn h0 ih.2⟩

/-! ## The output block after a last chunk -/

theorem out_apply (c : Dev nD) (t : Fin cfg0.N) (h1 : t.val % 8 = 7) (p : Fin 2048) (q : Fin 1024) :
    (outsAt0 m c t.val t.isLt).1 (ix2 p q)
      = lin (X m c) (W m c) (Bias m c) (A m c) (S m c) (B m c) (grow t.val p) (gcol t.val q) := by
  rw [Steps.out_last m c t h1, (acc_eq m c t.val t.isLt).1, (acc_eq m c t.val t.isLt).2]
  refine (Pay.pay1_apply (downAt m c t.val) (sblk m c t) (bbblk m c t) (mainAt m c t.val) (biblk m c t) p q).trans ?_
  rw [← lin_eq_blocks, biblk_apply m c t q]
  show (partialSum (mainBlk (X m c) (W m c) (grow t.val p) (gcol t.val q)) (t.val % 8) + Bias m c (gcol t.val q))
      + ∑ r : Fin 32, (partialSum (xaBlk (X m c) (A m c) (grow t.val p) r) (t.val % 8)
          * sblk m c t (ix2 (0 : Fin 1) r)) * bbblk m c t (ix2 q r) = _
  rw [h1]
  refine congrArg _ (Finset.sum_congr rfl fun r _ => ?_)
  rw [sblk_apply m c t r, bbblk_apply m c t q r]

end Cert.KernelIdeal.Fold

end
-- ==== Proof.Layer.lean ====
/-
  The layer's output as ONE function of the seven argument arrays, element by element.

  Element (b, s, o) of the [4, 2048, 4096] result is the layer's value at row `2048·b + s` of the flattened activations
  and output channel `o`, with the dequantized weight `W o k = (wq[o, k] as a real) · ws[o]`.
-/
import proofs.«125677_j25202868093527_1_alg».proof.Proof.Spec

noncomputable section

namespace Cert.QLin

open Idealize.ShloMosaic Idealize.ShloMosaic.ValueIdx

def layer (x : Vec Ideal ⟨3, ![4, 2048, 4096]⟩ .f32) (wq : Vec Ideal ⟨2, ![4096, 4096]⟩ .i32)
    (ws : Vec Ideal ⟨1, ![4096]⟩ .f32) (bias : Vec Ideal ⟨1, ![4096]⟩ .f32) (a : Vec Ideal ⟨2, ![32, 4096]⟩ .f32)
    (s : Vec Ideal ⟨1, ![32]⟩ .f32) (b : Vec Ideal ⟨2, ![4096, 32]⟩ .f32) : Vec Ideal ⟨3, ![4, 2048, 4096]⟩ .f32 := fun i =>
  lin (fun r k => x (ix3 (rowB r) (rowS r) k))
    (fun o k => FloatOps.sitofp (F := Ideal) .f32 (wq (ix2 o k)) * ws (ix1 o))
    (fun o => bias (ix1 o)) (fun q k => a (ix2 q k)) (fun q => s (ix1 q)) (fun o q => b (ix2 o q))
    (row (i 0) (i 1)) (i 2)

/-- The same at an element given by its coordinates: the activations' row read back at (b, s). -/
theorem layer_apply (x : Vec Ideal ⟨3, ![4, 2048, 4096]⟩ .f32) (wq : Vec Ideal ⟨2, ![4096, 4096]⟩ .i32)
    (ws : Vec Ideal ⟨1, ![4096]⟩ .f32) (bias : Vec Ideal ⟨1, ![4096]⟩ .f32) (a : Vec Ideal ⟨2, ![32, 4096]⟩ .f32)
    (s : Vec Ideal ⟨1, ![32]⟩ .f32) (b : Vec Ideal ⟨2, ![4096, 32]⟩ .f32) (bb : Fin 4) (ss : Fin 2048) (o : Fin 4096) :
    layer x wq ws bias a s b (ix3 bb ss o)
      = (∑ k : Fin 4096, x (ix3 bb ss k) * (FloatOps.sitofp (F := Ideal) .f32 (wq (ix2 o k)) * ws (ix1 o)) + bias (ix1 o))
        + ∑ q : Fin 32, ((∑ k : Fin 4096, x (ix3 bb ss k) * a (ix2 q k)) * s (ix1 q)) * b (ix2 o q) := by
  show lin _ _ _ _ _ _ (row bb ss) o = _
  unfold lin
  simp only [rowB_row, rowS_row]

end Cert.QLin

end
-- ==== Proof.Final.lean ====
/-
  The kernel's result as one function of its arguments.

  The output window's block is written back exactly after a last chunk, and then holds the layer's value at the point's
  rows and channels (the fold); the blocks of the 16 row-and-channel pairs tile the [8192, 4096] array, the block that
  holds (r, o) being the one of row block `r / 2048` and channel block `o / 1024`; so the array ends as the layer's value
  everywhere. The reshape after the region reads row `2048·b + s` at (b, s); the reshapes before it make the flattened
  activations, the scale as a column, and the bias and the rank-32 scale as rows. Put together the result is the
  layer's whole-array function of the seven arguments.
-/
import proofs.«125677_j25202868093527_1_alg».proof.Proof.Fold
import proofs.«125677_j25202868093527_1_alg».proof.Proof.Layer
import Idealize.ShloMosaic.Lib.StableHlo.Run
import Idealize.ShloMosaic.Lib.ValueLayout

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.QLin Cert.KernelIdeal.Fold

variable (m : (ℓ : Loc nD τ sig) → Buf (Elt Ideal) ℓ) (ρ : Dev nD → PrngReg)

/-! ## The output array after the region -/

/-- The [8192, 4096] array the region leaves: the layer's value at every row and channel. -/
def out2 (c : Dev nD) : Vec Ideal S8192x4096 .f32 := fun j =>
  lin (X m c) (W m c) (Bias m c) (A m c) (S m c) (B m c) (j 0) (j 1)

/-- What a writing-back point writes back is its block of that array. -/
theorem flushed_eq (c : Dev nD) (t : Fin cfg0.N) (hf : (cfg0.win 7).flush t = true) :
    (dats m 0 c).flushed 7 t = ((cfg0.win 7).blk t).view.read (Elt Ideal) (out2 m c) := by
  have h1 : t.val % 8 = 7 := (flush0_7 t).mp hf
  show (cfg0.win 7).cut (grid0.coords t) ((dats m 0 c).after 7 t) = _
  rw [after0_7]
  funext j
  obtain ⟨p, q, rfl⟩ : ∃ (p : Fin 2048) (q : Fin 1024), j = ix2 p q := ⟨j 0, j 1, eq_ix2 j⟩
  rw [View.read_apply]
  refine (out_apply m c t h1 p q).trans ?_
  have hi := (idx_facts t).2.2.2.2.2.2.2
  have e0 : grow t.val p = (((cfg0.win 7).blk t).view.emb (ix2 p q)) 0 := Fin.ext (by
    show 2048 * (t.val / 32 % 4) + p.val = win0_7.index t (0 : Fin 2) * 2048 + 1 * p.val; rw [hi.1]; omega)
  have e1 : gcol t.val q = (((cfg0.win 7).blk t).view.emb (ix2 p q)) 1 := Fin.ext (by
    show 1024 * (t.val / 8 % 4) + q.val = win0_7.index t (1 : Fin 2) * 1024 + 1 * q.val; rw [hi.2]; omega)
  exact congrArg₂ (lin (X m c) (W m c) (Bias m c) (A m c) (S m c) (B m c)) e0 e1

/-- An index of the array is in point `t`'s block iff each coordinate is in the block's range on its axis. -/
theorem mem_blk (t : Fin cfg0.N) (i : S8192x4096.Idx) :
    i ∈ ((cfg0.win 7).blk t).view.set ↔ ∀ a : Fin 2, win0_7.index t a * S2048x1024.size a ≤ (i a).val
      ∧ (i a).val < win0_7.index t a * S2048x1024.size a + S2048x1024.size a := by
  show i ∈ ((View.whole main_v4).slice (win0_7.rect t)).set ↔ _
  rw [View.set_slice_whole, Rect.mem_set_unit]
  exact Iff.rfl

/-- Every index is in the block of the last chunk of its row block and channel block. -/
theorem cover (i : S8192x4096.Idx) :
    ∃ t : Fin cfg0.N, (cfg0.win 7).flush t = true ∧ i ∈ ((cfg0.win 7).blk t).view.set := by
  have h0 : (i 0).val < 8192 := (i 0).isLt
  have h1 : (i 1).val < 4096 := (i 1).isLt
  have hN : cfg0.N = 128 := N_0
  obtain ⟨n, hn⟩ : ∃ n : ℕ, n = 32 * ((i 0).val / 2048) + 8 * ((i 1).val / 1024) + 7 := ⟨_, rfl⟩
  have hlt : n < cfg0.N := by rw [hN]; omega
  refine ⟨⟨n, hlt⟩, (flush0_7 ⟨n, hlt⟩).mpr (by show n % 8 = 7; omega), ?_⟩
  rw [mem_blk]
  have hi := (idx_facts ⟨n, hlt⟩).2.2.2.2.2.2.2
  intro a
  match a with
  | ⟨0, _⟩ =>
    show win0_7.index ⟨n, hlt⟩ (0 : Fin 2) * 2048 ≤ (i 0).val ∧ (i 0).val < win0_7.index ⟨n, hlt⟩ (0 : Fin 2) * 2048 + 2048
    rw [hi.1]; show n / 32 % 4 * 2048 ≤ (i 0).val ∧ (i 0).val < n / 32 % 4 * 2048 + 2048; omega
  | ⟨1, _⟩ =>
    show win0_7.index ⟨n, hlt⟩ (1 : Fin 2) * 1024 ≤ (i 1).val ∧ (i 1).val < win0_7.index ⟨n, hlt⟩ (1 : Fin 2) * 1024 + 1024
    rw [hi.2]; show n / 8 % 4 * 1024 ≤ (i 1).val ∧ (i 1).val < n / 8 % 4 * 1024 + 1024; omega

/-- So the array ends holding the layer's value everywhere. -/
theorem final (c : Dev nD) : (dats m 0 c).arrAt 7 cfg0.N = out2 m c :=
  (dats m 0 c).arrAt_eq_of_cover 7 (out2 m c) (flushed_eq m c) cover

/-! ## The reshapes before the region -/

theorem V_v0 (c : Dev nD) : xarr m c = shapeCast S8192x4096 (m ((c : Thread nD τ).loc main_arg0)) shapeCasts_S4x2048x4096_S8192x4096 := by
  show StableHlo.after hostOps0 (fun b => m (c, b)) (Proc.devRef .tc main_v0) = _
  after_results
  rfl
theorem V_v1 (c : Dev nD) : wsarr m c = shapeCast S4096x1 (m ((c : Thread nD τ).loc main_arg2)) shapeCasts_S4096_S4096x1 := by
  show StableHlo.after hostOps0 (fun b => m (c, b)) (Proc.devRef .tc main_v1) = _
  after_results
  rfl
theorem V_v2 (c : Dev nD) : biarr m c = shapeCast S1x4096 (m ((c : Thread nD τ).loc main_arg3)) shapeCasts_S4096_S1x4096 := by
  show StableHlo.after hostOps0 (fun b => m (c, b)) (Proc.devRef .tc main_v2) = _
  after_results
  rfl
theorem V_v3 (c : Dev nD) : sarr m c = shapeCast S1x32 (m ((c : Thread nD τ).loc main_arg5)) shapeCasts_S32_S1x32 := by
  show StableHlo.after hostOps0 (fun b => m (c, b)) (Proc.devRef .tc main_v3) = _
  after_results
  rfl

/-- The flattened activations' row `r` is position `r % 2048` of batch `r / 2048`. -/
theorem X_eq (c : Dev nD) : X m c = fun r k => m ((c : Thread nD τ).loc main_arg0) (ix3 (rowB r) (rowS r) k) := by
  funext r k
  unfold X
  rw [V_v0]
  refine shapeCast_apply _ _ (ix2 r k) (ix3 (rowB r) (rowS r) k) ?_
  rw [Shape.rowMajor_val_three, Shape.rowMajor_val_two]
  show (r.val / 2048 * 2048 + r.val % 2048) * 4096 + k.val = r.val * 4096 + k.val
  have := Nat.div_add_mod r.val 2048
  rw [show r.val / 2048 * 2048 + r.val % 2048 = r.val by omega]

/-- The dequantized weight from the integer weight and the scale. -/
theorem W_eq (c : Dev nD) : W m c = fun o k =>
    FloatOps.sitofp (F := Ideal) .f32 (m ((c : Thread nD τ).loc main_arg1) (ix2 o k)) * m ((c : Thread nD τ).loc main_arg2) (ix1 o) := by
  funext o k
  unfold W
  rw [V_v1]
  refine congrArg₂ (· * ·) (congrArg (FloatOps.sitofp (F := Ideal) .f32) (congrFun (V_main_arg1 m c) (ix2 o k))) ?_
  refine shapeCast_apply _ _ (ix2 o (0 : Fin 1)) (ix1 o) ?_
  rw [Shape.rowMajor_val_one, Shape.rowMajor_val_two]
  show o.val = o.val * 1 + 0
  omega

theorem Bias_eq (c : Dev nD) : Bias m c = fun o => m ((c : Thread nD τ).loc main_arg3) (ix1 o) := by
  funext o
  unfold Bias
  rw [V_v2]
  exact shapeCast_a_1a_apply _ _ (0 : Fin 1) o

theorem A_eq' (c : Dev nD) : A m c = fun q k => m ((c : Thread nD τ).loc main_arg4) (ix2 q k) := by
  funext q k
  exact congrFun (V_main_arg4 m c) (ix2 q k)

theorem S_eq (c : Dev nD) : S m c = fun q => m ((c : Thread nD τ).loc main_arg5) (ix1 q) := by
  funext q
  unfold S
  rw [V_v3]
  exact shapeCast_a_1a_apply _ _ (0 : Fin 1) q

theorem B_eq (c : Dev nD) : B m c = fun o q => m ((c : Thread nD τ).loc main_arg6) (ix2 o q) := by
  funext o q
  exact congrFun (V_main_arg6 m c) (ix2 o q)

/-! ## The reshape after the region, and the result -/

/-- The program's result: the layer's function of the seven arguments as launched. -/
abbrev result (c : Dev nD) : Buf (Elt Ideal) ((c : Thread nD τ).loc main_v5) :=
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem tail_eq (c : Dev nD) :
    Pipeline.afterTail₀ cfgs (dats m) 0 (V0 m) [hostOps1] c main_v5
      = shapeCast S4x2048x4096 (out2 m c) shapeCasts_S8192x4096_S4x2048x4096 := by
  unfold Pipeline.afterTail₀
  show StableHlo.after hostOps1 _ (Proc.devRef .tc main_v5) = _
  after_results
  exact congrArg (fun v => shapeCast S4x2048x4096 v shapeCasts_S8192x4096_S4x2048x4096)
    ((Pipeline.withArrays_arr spec0 launch0.win.arr_inj c _ _ 7).trans (final m c))

theorem result_eq (c : Dev nD) :
    shapeCast S4x2048x4096 (out2 m c) shapeCasts_S8192x4096_S4x2048x4096 = result m c := by
  funext i
  obtain ⟨b, s, o, rfl⟩ : ∃ (b : Fin 4) (s : Fin 2048) (o : Fin 4096), i = ix3 b s o := ⟨i 0, i 1, i 2, eq_ix3 i⟩
  refine (shapeCast_apply (out2 m c) shapeCasts_S8192x4096_S4x2048x4096 (ix3 b s o) (ix2 (row b s) o) ?_).trans ?_
  · rw [Shape.rowMajor_val_three, Shape.rowMajor_val_two]
    show (2048 * b.val + s.val) * 4096 + o.val = (b.val * 2048 + s.val) * 4096 + o.val
    rw [Nat.mul_comm 2048 b.val]
  · show lin (X m c) (W m c) (Bias m c) (A m c) (S m c) (B m c) (row b s) o = lin _ _ _ _ _ _ (row b s) o
    rw [X_eq, W_eq, Bias_eq, A_eq', S_eq, B_eq]

/-- The run, read: the result at the layer's function of the arguments, the arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  exact (θ_run defs _ _).mono (fun _ h c =>
    ⟨((h c).2 main_v5 (Pipeline.mem_restRefs_of main_v5 (by decide) (by decide))).trans ((tail_eq m c).trans (result_eq m c)),
      (((h c).2 main_arg0 (Pipeline.mem_restRefs_of main_arg0 (by decide) (by decide))).trans (W_main_arg0 m (dats m) c)),
      ((h c).1 1).trans (((dats m 0 c).arrAt_in 1 rfl _).trans ((Gen.A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((Gen.A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((Gen.A_eq m c 6).trans (V_main_arg6 m c)))⟩)
    (run_main m ρ)

end Cert.KernelIdeal.Final

end
-- ==== Proof.RefSide.lean ====
/-
  The reference, read at an element: the host program's result is the layer's whole-array function of its arguments.

  Element (b, s, o) of the reference's result is, stage by stage, `(∑ₖ x[b,s,k] · (wq[o,k] · ws[o]) + bias[o])
  + ∑_q ((∑ₖ x[b,s,k] · a[q,k]) · s[q]) · b[o,q]`: the two broadcasts of the scale read `ws[o]`, those of the bias
  `bias[o]`, those of the rank-32 scale `s[q]`, and each contraction is the plain sum over its one contracted axis.
-/
import proofs.«125677_j25202868093527_1_alg».proof.Proof.Layer
import proofs.«125677_j25202868093527_1_alg».proof.Proof.Gen.ReferenceIdeal.Run
import proofs.«125677_j25202868093527_1_alg».proof.Proof.Gen.ReferenceIdeal.Read
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.QLin

/-! ## The stages' index maps at an element given by coordinates -/

section
variable (b : Fin 4) (s : Fin 2048) (o k : Fin 4096) (q : Fin 32)

theorem lidx4 : lidx_main_v4 (ix3 b s o) k = ix3 b s k :=
  funext fun a => Fin.ext (by match a with | ⟨0, _⟩ => rfl | ⟨1, _⟩ => rfl | ⟨2, _⟩ => rfl)
theorem ridx4 : ridx_main_v4 (ix3 b s o) k = ix2 o k :=
  funext fun a => Fin.ext (by match a with | ⟨0, _⟩ => rfl | ⟨1, _⟩ => rfl)
theorem idx12 : idx_main_v1 (idx_main_v2 (ix2 o k)) = ix1 o :=
  funext fun a => Fin.ext (by match a with | ⟨0, _⟩ => rfl)
theorem idx56 : idx_main_v5 (idx_main_v6 (ix3 b s o)) = ix1 o :=
  funext fun a => Fin.ext (by match a with | ⟨0, _⟩ => rfl)
theorem lidx12 : lidx_main_v12 (ix3 b s o) q = ix3 b s q :=
  funext fun a => Fin.ext (by match a with | ⟨0, _⟩ => rfl | ⟨1, _⟩ => rfl | ⟨2, _⟩ => rfl)
theorem ridx12 : ridx_main_v12 (ix3 b s o) q = ix2 o q :=
  funext fun a => Fin.ext (by match a with | ⟨0, _⟩ => rfl | ⟨1, _⟩ => rfl)
theorem lidx8 : lidx_main_v8 (ix3 b s q) k = ix3 b s k :=
  funext fun a => Fin.ext (by match a with | ⟨0, _⟩ => rfl | ⟨1, _⟩ => rfl | ⟨2, _⟩ => rfl)
theorem ridx8 : ridx_main_v8 (ix3 b s q) k = ix2 q k :=
  funext fun a => Fin.ext (by match a with | ⟨0, _⟩ => rfl | ⟨1, _⟩ => rfl)
theorem idx910 : idx_main_v9 (idx_main_v10 (ix3 b s q)) = ix1 q :=
  funext fun a => Fin.ext (by match a with | ⟨0, _⟩ => rfl)

end

/-! ## The result -/

/-- The reference's last stage is the layer's function of the argument arrays. -/
theorem ref_eq (x0 : (⟨S4x2048x4096, .f32⟩ : BufTy).Contents (Elt Ideal)) (x1 : (⟨S4096x4096, .i32⟩ : BufTy).Contents (Elt Ideal))
    (x2 x3 : (⟨S4096, .f32⟩ : BufTy).Contents (Elt Ideal)) (x4 : (⟨S32x4096, .f32⟩ : BufTy).Contents (Elt Ideal))
    (x5 : (⟨S32, .f32⟩ : BufTy).Contents (Elt Ideal)) (x6 : (⟨S4096x32, .f32⟩ : BufTy).Contents (Elt Ideal)) :
    val_main_v13 (F := Ideal) x0 x1 x2 x3 x4 x5 x6 = layer x0 x1 x2 x3 x4 x5 x6 := by
  funext i
  obtain ⟨b, s, o, rfl⟩ : ∃ (b : Fin 4) (s : Fin 2048) (o : Fin 4096), i = ix3 b s o := ⟨i 0, i 1, i 2, eq_ix3 i⟩
  rw [layer_apply, val_main_v13_apply, val_main_v7_apply, val_main_v4_apply, val_main_v6_apply, val_main_v5_apply,
    val_main_v12_apply]
  refine congrArg₂ (· + ·) (congrArg₂ (· + ·) (Finset.sum_congr rfl fun k _ => ?_) ?_) (Finset.sum_congr rfl fun q _ => ?_)
  · rw [lidx4 b s o k, ridx4 b s o k, val_main_v3_apply, val_main_v0_apply, val_main_v2_apply, val_main_v1_apply,
      idx12 o k]
    rfl
  · exact congrArg x3 (idx56 b s o)
  · rw [lidx12 b s o q, ridx12 b s o q, val_main_v11_apply, val_main_v8_apply, val_main_v10_apply, val_main_v9_apply,
      idx910 b s q]
    refine congrArg₂ (· * ·) (congrArg₂ (· * ·) (Finset.sum_congr rfl fun k _ => ?_) rfl) rfl
    rw [lidx8 b s k q, ridx8 b s k q]

end Cert.ReferenceIdeal.RefValue

end
-- ==== Proof.lean ====
/-
  A quantized linear layer with a low-rank correction, tiled on a [4, 4, 8] grid, against its plain jnp reference.

  Both programs compute, for every token (b, s) and output channel o,

      (∑ₖ x[b,s,k] · (wq[o,k] · ws[o]) + bias[o]) + ∑_q ((∑ₖ x[b,s,k] · A[q,k]) · S[q]) · B[o,q],

  the integer weight read as a real. The kernel flattens the tokens to 8192 rows, walks the contraction axis in 8 chunks of
  512 columns innermost, keeps the base product and the rank-32 down-projection in two accumulators that it zeroes at a
  first chunk and adds to at every chunk, and at a last chunk stores `(acc + bias) + (xa · S) · Bᵀ`; the reference takes
  each contraction as one sum over the 4096 columns. Over the extended reals the two agree because a sum over 4096 columns
  regroups into 8 sums of 512 (`+` is commutative and associative there, and `0 + x = x`), a change of float format is the
  identity, and the two final additions associate the same way on both sides. Nothing asks the inputs to be finite.

  Proof/Spec.lean has the regrouping, Proof/Payload.lean the body's arithmetic at an element, Proof/Pieces.lean and
  Proof/Steps.lean what each grid point leaves, Proof/Fold.lean the induction over the points, Proof/Final.lean the result
  array and the reshapes around the region, Proof/RefSide.lean the reference at an element; the three frames are the
  generated frame certificates and the reference's generated run, and the idealization rewrote nothing.
-/
import proofs.«125677_j25202868093527_1_alg».proof.Defs
import proofs.«125677_j25202868093527_1_alg».proof.Proof.Gen.Kernel
import proofs.«125677_j25202868093527_1_alg».proof.Proof.Gen.Kernel.Skeleton
import proofs.«125677_j25202868093527_1_alg».proof.Proof.Gen.Kernel.Launch
import proofs.«125677_j25202868093527_1_alg».proof.Proof.Gen.Kernel.Points
import proofs.«125677_j25202868093527_1_alg».proof.Proof.Gen.Kernel.Frame
import proofs.«125677_j25202868093527_1_alg».proof.Proof.Gen.KernelIdeal
import proofs.«125677_j25202868093527_1_alg».proof.Proof.Gen.KernelIdeal.Skeleton
import proofs.«125677_j25202868093527_1_alg».proof.Proof.Gen.KernelIdeal.Launch
import proofs.«125677_j25202868093527_1_alg».proof.Proof.Gen.KernelIdeal.Points
import proofs.«125677_j25202868093527_1_alg».proof.Proof.Gen.KernelIdeal.Frame
import proofs.«125677_j25202868093527_1_alg».proof.Proof.Gen.ReferenceIdeal
import proofs.«125677_j25202868093527_1_alg».proof.Proof.Gen.ReferenceIdeal.Run
import proofs.«125677_j25202868093527_1_alg».proof.Proof.Gen.ReferenceIdeal.Read
import proofs.«125677_j25202868093527_1_alg».proof.Proof.Gen.Pre_finite_inputs
import proofs.«125677_j25202868093527_1_alg».proof.Proof.Final
import proofs.«125677_j25202868093527_1_alg».proof.Proof.RefSide
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array and the reference's both end at the layer's function of arguments
    that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.ref_eq]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
